-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S_ : Shape := ⟨0, ![]⟩
abbrev S1x625000 : Shape := ⟨2, ![1, 625000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x625000_S1x625000_0_0 : S2x625000.Slices ![0, 0] S1x625000
  shapeCasts_S1x625000_S625000 : S1x625000.ShapeCasts S625000

variable [Facts]

def fn_part3 {F : FTy → Type} [FloatOps F] (main_arg1 : IVec S2x625000 32) (main_v48 : IVec S_ 1) (main_v50 : IVec S625000 32) (main_c_18 : IVec S_ 32) : IVec S_ 1 :=
  let main_v51 : IVec S625000 32 := broadcastInDim S625000 ![] bcast_S_S625000 main_c_18
  let main_v52 : IVec S625000 1 := cmpi .sge main_v50 main_v51
  let main_c_19 : IVec S_ 1 := constantI S_ 1 1#1
  let main_v53 : IVec S_ 1 := (fun x v => Host.reduce IntOp.andi x v reducesTo_S625000_S_d0 h_S_) main_v52 main_c_19
  let main_v54 : IVec S_ 1 := andi main_v48 main_v53
  let main_v55 : IVec S1x625000 32 := (extractStridedSlice S1x625000 ![0, 0] · slices_S2x625000_S1x625000_0_0) main_arg1
  let main_v56 : IVec S625000 32 := shapeCast S625000 main_v55 shapeCasts_S1x625000_S625000
  let main_c_20 : IVec S_ 32 := constantI S_ 32 50000#32
  let main_v57 : IVec S625000 32 := broadcastInDim S625000 ![] bcast_S_S625000 main_c_20
  let main_v58 : IVec S625000 1 := cmpi .slt main_v56 main_v57
  let main_c_21 : IVec S_ 1 := constantI S_ 1 1#1
  let main_v59 : IVec S_ 1 := (fun x v => Host.reduce IntOp.andi x v reducesTo_S625000_S_d0 h_S_) main_v58 main_c_21
  let main_v60 : IVec S_ 1 := andi main_v54 main_v59
  main_v60

def fn_part2 {F : FTy → Type} [FloatOps F] (main_arg1 : IVec S2x625000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x625000 32 := (extractStridedSlice S1x625000 ![0, 0] · slices_S2x625000_S1x625000_0_0) main_arg1
  let main_v50 : IVec S625000 32 := shapeCast S625000 main_v49 shapeCasts_S1x625000_S625000
  let main_c_18 : IVec S_ 32 := constantI S_ 32 0#32
  fn_part3 (F := F) main_arg1 main_v48 main_v50 main_c_18

def fn_part1 {F : FTy → Type} [FloatOps F] (main_arg1 : IVec S2x625000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x625000 32) (main_arg2 : FVec F S625000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000 .f32 := Host.absf main_arg2
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S1 : Shape := ⟨1, ![1]⟩
abbrev S1x1 : Shape := ⟨2, ![1, 1]⟩
abbrev S625000x128 : Shape := ⟨2, ![625000, 128]⟩
abbrev S1x128 : Shape := ⟨2, ![1, 128]⟩
abbrev S25000x128 : Shape := ⟨2, ![25000, 128]⟩
abbrev S25000x1 : Shape := ⟨2, ![25000, 1]⟩
abbrev S5000x128 : Shape := ⟨2, ![5000, 128]⟩

abbrev nBuf : Space → Nat
  | .hbm => 49
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S1, .i32⟩
  | .hbm, ⟨24, _⟩ => ⟨S_, .i32⟩
  | .hbm, ⟨25, _⟩ => ⟨S625000x1, .i32⟩
  | .hbm, ⟨26, _⟩ => ⟨S625000x1, .i1⟩
  | .hbm, ⟨27, _⟩ => ⟨S1x1, .i32⟩
  | .hbm, ⟨28, _⟩ => ⟨S625000x1, .i32⟩
  | .hbm, ⟨29, _⟩ => ⟨S625000x1, .i1⟩
  | .hbm, ⟨30, _⟩ => ⟨S625000x1, .i1⟩
  | .hbm, ⟨31, _⟩ => ⟨S_, .i1⟩
  | .hbm, ⟨32, _⟩ => ⟨S625000, .i1⟩
  | .hbm, ⟨33, _⟩ => ⟨S625000x128, .f32⟩
  | .hbm, ⟨34, _⟩ => ⟨S625000x128, .i1⟩
  | .hbm, ⟨35, _⟩ => ⟨S_, .f32⟩
  | .hbm, ⟨36, _⟩ => ⟨S625000x128, .f32⟩
  | .hbm, ⟨37, _⟩ => ⟨S625000x128, .f32⟩
  | .hbm, ⟨38, _⟩ => ⟨S1x128, .f32⟩
  | .hbm, ⟨39, _⟩ => ⟨S1x128, .f32⟩
  | .hbm, ⟨40, _⟩ => ⟨S625000x1, .f32⟩
  | .hbm, ⟨41, _⟩ => ⟨S625000x128, .f32⟩
  | .hbm, ⟨42, _⟩ => ⟨S_, .f32⟩
  | .hbm, ⟨43, _⟩ => ⟨S50000x128, .f32⟩
  | .hbm, ⟨44, _⟩ => ⟨S625000x1, .i32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S50000x128, .f32⟩
  | .local _ .vmem, ⟨0, _⟩ => ⟨S25000x128, .f32⟩
  | .local _ .vmem, ⟨1, _⟩ => ⟨S25000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S25000x1, .f32⟩
  | .local _ .vmem, ⟨7, _⟩ => ⟨S25000x1, .f32⟩
  | .local _ .vmem, ⟨8, _⟩ => ⟨S25000x128, .f32⟩
  | .local _ .vmem, ⟨9, _⟩ => ⟨S25000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S25000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  reducesTo_S625000x1_S625000_d1 : S625000x1.ReducesTo [1] S625000
  h_S_ : 0 < S_.numel
  bcast_S625000_S625000x128_0 : S625000.BroadcastsInDim S625000x128 (![0] : Fin 1 → Fin S625000x128.rank)
  bcast_S_S625000x128 : S_.BroadcastsInDim S625000x128 (![] : Fin 0 → Fin S625000x128.rank)
  shapeCasts_S128_S1x128 : S128.ShapeCasts S1x128
  shapeCasts_S625000_S625000x1 : S625000.ShapeCasts S625000x1
  inb_S25000x128_S25000x128_0_0 : ∀ a, (![0, 0] : Fin 2 → Nat) a + S25000x128.size a ≤ S25000x128.size a
  h_S25000x128 : 0 < S25000x128.numel
  shapeCasts_S25000x128_S25000x128 : S25000x128.ShapeCasts S25000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S25000x128 : S1x128.Broadcasts S25000x128
  inb_S25000x1_S25000x1_0_0 : ∀ a, (![0, 0] : Fin 2 → Nat) a + S25000x1.size a ≤ S25000x1.size a
  h_S25000x1 : 0 < S25000x1.numel
  shapeCasts_S25000x1_S25000x1 : S25000x1.ShapeCasts S25000x1
  broadcasts_S25000x1_S25000x128 : S25000x1.Broadcasts S25000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  gather_S50000x128_S625000x1_S625000x128_1_0_n_n_0_1_1128_wf : GatherDims.WF S50000x128 S625000x1 S625000x128 [1] [0] [] [0] [] 1 ![1, 128]
  dot_S25000x128_S128x128_S25000x128_1_0_0_1_n_n_wf : DotDims.WF S25000x128 S128x128 S25000x128 [1] [0] [0] [1] [] []
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x128.size a ≤ S625000x128.size a
  hwx0_0 : ∀ i : grid0.Coords, EltTy.bits .f32 = 32 ∨ (Rect.block (s := S625000x128) S25000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S25000x1.size a ≤ S625000x1.size a
  hwx0_5 : ∀ i : grid0.Coords, EltTy.bits .f32 = 32 ∨ (Rect.block (s := S625000x1) S25000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S25000x128.size a ≤ S625000x128.size a
  hwx0_6 : ∀ i : grid0.Coords, EltTy.bits .f32 = 32 ∨ (Rect.block (s := S625000x128) S25000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S25000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S25000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S25000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S625000x128, .f32⟩
  | .hbm, ⟨24, _⟩ => ⟨S128x128, .f32⟩
  | .hbm, ⟨25, _⟩ => ⟨S625000x128, .f32⟩
  | .hbm, ⟨26, _⟩ => ⟨S1x128, .f32⟩
  | .hbm, ⟨27, _⟩ => ⟨S625000x128, .f32⟩
  | .hbm, ⟨28, _⟩ => ⟨S625000x128, .f32⟩
  | .hbm, ⟨29, _⟩ => ⟨S_, .f32⟩
  | .hbm, ⟨30, _⟩ => ⟨S625000x128, .f32⟩
  | .hbm, ⟨31, _⟩ => ⟨S625000x128, .f32⟩
  | .hbm, ⟨32, _⟩ => ⟨S128x128, .f32⟩
  | .hbm, ⟨33, _⟩ => ⟨S625000x128, .f32⟩
  | .hbm, ⟨34, _⟩ => ⟨S1x128, .f32⟩
  | .hbm, ⟨35, _⟩ => ⟨S625000x128, .f32⟩
  | .hbm, ⟨36, _⟩ => ⟨S625000x128, .f32⟩
  | .hbm, ⟨37, _⟩ => ⟨S625000x1, .f32⟩
  | .hbm, ⟨38, _⟩ => ⟨S625000x128, .f32⟩
  | .hbm, ⟨39, _⟩ => ⟨S625000x128, .f32⟩
  | .hbm, ⟨40, _⟩ => ⟨S_, .f32⟩
  | .hbm, ⟨41, _⟩ => ⟨S50000x128, .f32⟩
  | .hbm, ⟨42, _⟩ => ⟨S625000x1, .i32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  transposes_S128x128_S128x128_1_0 : S128x128.Transposes [1, 0] S128x128
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  dot_S625000x128_S128x128_S625000x128_1_0_0_1_n_n_wf : DotDims.WF S625000x128 S128x128 S625000x128 [1] [0] [0] [1] [] []
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KTake.lean ====
/-
  The kernel's row gather: `jnp.take` reads row `src e` of the node features for every edge `e`, wrapping a negative
  index once and filling a row with a constant where the wrapped index falls outside the table. When every source index
  lies in `[0, 50000)` no row is filled, and the result is the plain gather at the wrapped indices.
-/
import proofs.«411047_j88776974008405_1_alg».proof.Proof.Gen.KernelIdeal
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Ideal

noncomputable section

namespace Cert.KernelIdeal.Take

open Cert.KernelIdeal Cert.KernelIdeal.Gen Idealize.ShloMosaic Idealize.ShloMosaic.ValueIdx

variable {F : FTy → Type} [FloatOps F]

/-- The source indices: row 0 of the edge list, as a flat array. -/
def srcOf (a1 : IVec S2x625000 32) : IVec S625000 32 :=
  shapeCast S625000 (extractStridedSlice S1x625000 ![0, 0] a1 slices_S2x625000_S1x625000_0_0) shapeCasts_S1x625000_S625000

/-- The gather's start indices, a column: a negative index has the table's height added once. -/
def wrapIdx (s : IVec S625000 32) : IVec S625000x1 32 :=
  broadcastInDim S625000x1 ![0] bcast_S625000_S625000x1_0
    (select (cmpi .slt s (broadcastInDim S625000 ![] bcast_S_S625000 (constantI S_ 32 0#32)))
      (addi s (broadcastInDim S625000 ![] bcast_S_S625000 (constantI S_ 32 50000#32))) s)

/-- `jnp.take` with its default fill: the gathered row where the wrapped index is inside `[0, 49999]`, the fill
    constant elsewhere. -/
def takeTerm (x0 : FVec F S50000x128 .f32) (s : IVec S625000 32) : FVec F S625000x128 .f32 :=
  select
    (broadcastInDim S625000x128 ![0] bcast_S625000_S625000x128_0
      (Host.reduce IntOp.andi
        (andi (cmpi .sge (wrapIdx s) (broadcastInDim S625000x1 ![] bcast_S_S625000x1 (constantI S_ 32 0#32)))
          (cmpi .sle (wrapIdx s)
            (broadcastInDim S625000x1 ![0, 1] bcast_S1x1_S625000x1_0_1
              (broadcastInDim S1x1 ![1] bcast_S1_S1x1_1 (constantI S1 32 49999#32)))))
        (constantI S_ 1 1#1) reducesTo_S625000x1_S625000_d1 h_S_))
    (Host.gather gather_S50000x128_S625000x1_S625000x128_1_0_n_n_0_1_1128 x0 (wrapIdx s))
    (broadcastInDim S625000x128 ![] bcast_S_S625000x128 (constant S_ .f32 0x7FC00000#32))

/-- A signed word in `[0, 50000)`: it is not negative, and it is at most `49999`. -/
theorem word_in_range (x : BitVec 32) (hlo : IntOp.cmpi .sge x 0#32 = 1#1) (hhi : IntOp.cmpi .slt x 50000#32 = 1#1) :
    IntOp.cmpi .slt x 0#32 = 0#1 ∧ IntOp.cmpi .sle x 49999#32 = 1#1 := by
  change BitVec.ofBool ((0#32).sle x) = 1#1 at hlo
  change BitVec.ofBool (x.slt 50000#32) = 1#1 at hhi
  show BitVec.ofBool (x.slt 0#32) = 0#1 ∧ BitVec.ofBool (x.sle 49999#32) = 1#1
  rw [StableHlo.Predicate.ofBool_eq_one_iff] at hlo hhi
  have e0 : (0#32 : BitVec 32).toInt = 0 := by decide
  have e1 : (50000#32 : BitVec 32).toInt = 50000 := by decide
  have e2 : (49999#32 : BitVec 32).toInt = 49999 := by decide
  have h1 : (0 : Int) ≤ x.toInt := by
    have := hlo; unfold BitVec.sle at this; rw [e0] at this; exact of_decide_eq_true this
  have h2 : x.toInt < 50000 := by
    have := hhi; unfold BitVec.slt at this; rw [e1] at this; exact of_decide_eq_true this
  constructor
  · apply eq_zero_of_ne_one
    rw [StableHlo.Predicate.ofBool_eq_one_iff]
    unfold BitVec.slt; rw [e0]
    intro h; have := of_decide_eq_true h; omega
  · rw [StableHlo.Predicate.ofBool_eq_one_iff]
    unfold BitVec.sle; rw [e2]
    exact decide_eq_true (by omega)

/-- A left fold by `and` from the bit 1 over entries that are all the bit 1 is the bit 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h => by
    refine foldl_andi_of_all_one f l _ ?_ (fun n hn => h n (List.mem_cons_of_mem _ hn))
    show IntOp.andi init (f a) = 1#1
    rw [hi, h a (List.mem_cons_self ..)]; decide

/-- An all-reduce by `and` from the bit 1 over an array whose every entry is the bit 1 is the bit 1 everywhere. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all_one x _ _ (hinit _) (fun n _ => hx n)

/-- The source index of edge `e` is the edge list's entry `(0, e)`. -/
theorem srcOf_apply (a1 : IVec S2x625000 32) (e : Fin 625000) : srcOf a1 (ix1 e) = a1 (ix2 (0 : Fin 2) e) := by
  unfold srcOf
  refine (shapeCast_apply _ shapeCasts_S1x625000_S625000 (ix1 e) (ix2 (0 : Fin 1) e) ?_).trans ?_
  · rewrite [Shape.rowMajor_val_two, Shape.rowMajor_val_one]
    show 0 * 625000 + e.val = e.val
    omega
  · exact extractStridedSlice_apply ![0, 0] a1 slices_S2x625000_S1x625000_0_0 (ix2 (0 : Fin 1) e) (ix2 (0 : Fin 2) e)
      (fun a => match a with
        | ⟨0, _⟩ => by show (0 : Nat) = 0 + 0; omega
        | ⟨1, _⟩ => by show e.val = 0 + e.val; omega)

/-- The wrapped index column at `(e, ·)`: the source index, with the table's height added when it is negative. -/
theorem wrapIdx_apply (s : IVec S625000 32) (j : S625000x1.Idx) :
    wrapIdx s j = Scalar.select (IntOp.cmpi .slt (s (ix1 (n := 625000) (j 0))) 0#32)
      (IntOp.addi (s (ix1 (n := 625000) (j 0))) 50000#32) (s (ix1 (n := 625000) (j 0))) := by
  unfold wrapIdx
  refine (broadcastInDim_apply ![0] bcast_S625000_S625000x1_0 _ j (ix1 (n := 625000) (j 0)) (fun a => match a with
    | ⟨0, _⟩ => by
      show (j 0).val = if (625000 : Nat) = 1 then 0 else (j 0).val
      rw [if_neg (by decide)])).trans ?_
  rfl

/-- With every source index in `[0, 50000)` nothing is wrapped: the column's entry for edge `e` is the source index. -/
theorem wrapIdx_of_range (a1 : IVec S2x625000 32)
    (hlo : ∀ e : Fin 625000, IntOp.cmpi .sge (a1 (ix2 (0 : Fin 2) e)) 0#32 = 1#1)
    (hhi : ∀ e : Fin 625000, IntOp.cmpi .slt (a1 (ix2 (0 : Fin 2) e)) 50000#32 = 1#1) (i : S625000x1.Idx) :
    wrapIdx (srcOf a1) i = a1 (ix2 (0 : Fin 2) (i 0)) := by
  rw [wrapIdx_apply, srcOf_apply a1 (i 0), (word_in_range _ (hlo (i 0)) (hhi (i 0))).1, select_zero]

/-- With every source index in `[0, 50000)` the in-bounds test holds at every entry of the column. -/
theorem inBounds_of_range (a1 : IVec S2x625000 32)
    (hlo : ∀ e : Fin 625000, IntOp.cmpi .sge (a1 (ix2 (0 : Fin 2) e)) 0#32 = 1#1)
    (hhi : ∀ e : Fin 625000, IntOp.cmpi .slt (a1 (ix2 (0 : Fin 2) e)) 50000#32 = 1#1) (i : S625000x1.Idx) :
    andi (cmpi .sge (wrapIdx (srcOf a1)) (broadcastInDim S625000x1 ![] bcast_S_S625000x1 (constantI S_ 32 0#32)))
      (cmpi .sle (wrapIdx (srcOf a1))
        (broadcastInDim S625000x1 ![0, 1] bcast_S1x1_S625000x1_0_1
          (broadcastInDim S1x1 ![1] bcast_S1_S1x1_1 (constantI S1 32 49999#32)))) i = 1#1 := by
  show IntOp.andi (IntOp.cmpi .sge (wrapIdx (srcOf a1) i) 0#32) (IntOp.cmpi .sle (wrapIdx (srcOf a1) i) 49999#32) = 1#1
  rw [wrapIdx_of_range a1 hlo hhi i, hlo (i 0), (word_in_range _ (hlo (i 0)) (hhi (i 0))).2]
  decide

/-- With every source index in `[0, 50000)` nothing is filled: the take is the gather at the wrapped indices. -/
theorem take_of_range (x0 : FVec Ideal S50000x128 .f32) (a1 : IVec S2x625000 32)
    (hlo : ∀ e : Fin 625000, IntOp.cmpi .sge (a1 (ix2 (0 : Fin 2) e)) 0#32 = 1#1)
    (hhi : ∀ e : Fin 625000, IntOp.cmpi .slt (a1 (ix2 (0 : Fin 2) e)) 50000#32 = 1#1) :
    takeTerm (F := Ideal) x0 (srcOf a1)
      = Host.gather gather_S50000x128_S625000x1_S625000x128_1_0_n_n_0_1_1128 x0 (wrapIdx (srcOf a1)) := by
  funext j
  unfold takeTerm
  rw [select_apply]
  have hm : broadcastInDim S625000x128 ![0] bcast_S625000_S625000x128_0
      (Host.reduce IntOp.andi
        (andi (cmpi .sge (wrapIdx (srcOf a1)) (broadcastInDim S625000x1 ![] bcast_S_S625000x1 (constantI S_ 32 0#32)))
          (cmpi .sle (wrapIdx (srcOf a1))
            (broadcastInDim S625000x1 ![0, 1] bcast_S1x1_S625000x1_0_1
              (broadcastInDim S1x1 ![1] bcast_S1_S1x1_1 (constantI S1 32 49999#32)))))
        (constantI S_ 1 1#1) reducesTo_S625000x1_S625000_d1 h_S_) j = 1#1 := by
    refine (broadcastInDim_apply ![0] bcast_S625000_S625000x128_0 _ j (ix1 (n := 625000) (j 0)) (fun a => match a with
      | ⟨0, _⟩ => by
        show (j 0).val = if (625000 : Nat) = 1 then 0 else (j 0).val
        rw [if_neg (by decide)])).trans ?_
    exact reduce_andi_of_all_one _ _ _ _ (fun _ => rfl) (inBounds_of_range a1 hlo hhi) _
  rw [hm, select_one]

end Cert.KernelIdeal.Take

end
-- ==== Proof.KHost.lean ====
/-
  What the host operations around the two kernels leave in each array a kernel reads, as functions of the arguments:
  before the message kernel the gathered source rows, the two bias rows and the edge-weight column; between the
  kernels the scatter-add of the messages onto the nodes and the self-loop's two bias rows.
-/
import proofs.«411047_j88776974008405_1_alg».proof.Proof.Gen.KernelIdeal.Frame
import proofs.«411047_j88776974008405_1_alg».proof.Proof.KTake
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- Contents carried to a typed reference's buffer and back are the contents. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

/-- The destination indices: row 1 of the edge list, as a flat array. -/
def dstOf (a1 : IVec S2x625000 32) : IVec S625000 32 :=
  shapeCast S625000 (extractStridedSlice S1x625000 ![1, 0] a1 slices_S2x625000_S1x625000_1_0) shapeCasts_S1x625000_S625000

/-! ## Before the message kernel -/

/-- The function called for the gather writes `takeTerm` of the node features and the source indices it is given. -/
theorem take_result (W : Valuation τ sig (Elt F)) :
    StableHlo.after hostOps0_1 W (Proc.devRef .tc main_v4)
      = Take.takeTerm (W (Proc.devRef .tc main_arg0)) (W (Proc.devRef .tc main_v1)) := by
  after_results_simp
  have e1 : ((TRef.of main_v1 : TRef sig ⟨S625000, .i32⟩)).ofBuf (W (Proc.devRef .tc main_v1)) = W (Proc.devRef .tc main_v1) := rfl
  have e0 : ((TRef.of main_arg0 : TRef sig ⟨S50000x128, .f32⟩)).ofBuf (W (Proc.devRef .tc main_arg0)) = W (Proc.devRef .tc main_arg0) := rfl
  simp only [ofBuf_toBuf, e1, e0]
  unfold Take.takeTerm Take.wrapIdx
  exact eq_of_heq (cast_heq _ _)

theorem W1_v1 (c : Dev nD) : W1 m ρ c (Proc.devRef .tc main_v1) = Take.srcOf (m ((c : Thread nD τ).loc main_arg1)) := by
  show StableHlo.after hostOps0 (W0 m ρ c) (Proc.devRef .tc main_v1) = _
  after_results <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

/-- The message kernel's first operand: the take of the node features at the source indices. -/
theorem V3_v4 (c : Dev nD) :
    V3 m ρ c main_v4 = Take.takeTerm (m ((c : Thread nD τ).loc main_arg0)) (Take.srcOf (m ((c : Thread nD τ).loc main_arg1))) := by
  have e3 : W3 m ρ c (Proc.devRef .tc main_v4) = W2 m ρ c (Proc.devRef .tc main_v4) := by
    show StableHlo.after hostOps0_2 (W2 m ρ c) (Proc.devRef .tc main_v4) = _
    generalize W2 m ρ c = W
    after_results <;> rfl
  show W3 m ρ c (Proc.devRef .tc main_v4) = _
  rw [e3]
  show StableHlo.after hostOps0_1 (W1 m ρ c) (Proc.devRef .tc main_v4) = _
  rw [take_result, W1_v1, W1_arg0]

/-- Its bias rows and edge-weight column: the arguments reshaped. -/
theorem V3_v5 (c : Dev nD) : V3 m ρ c main_v5 = shapeCast S1x128 (m ((c : Thread nD τ).loc main_arg4)) shapeCasts_S128_S1x128 := by
  show StableHlo.after hostOps0_2 (StableHlo.after hostOps0_1 (StableHlo.after hostOps0 (W0 m ρ c))) (Proc.devRef .tc main_v5) = _
  after_results <;> rfl
theorem V3_v6 (c : Dev nD) : V3 m ρ c main_v6 = shapeCast S1x128 (m ((c : Thread nD τ).loc main_arg6)) shapeCasts_S128_S1x128 := by
  show StableHlo.after hostOps0_2 (StableHlo.after hostOps0_1 (StableHlo.after hostOps0 (W0 m ρ c))) (Proc.devRef .tc main_v6) = _
  after_results <;> rfl
theorem V3_v7 (c : Dev nD) : V3 m ρ c main_v7 = shapeCast S625000x1 (m ((c : Thread nD τ).loc main_arg2)) shapeCasts_S625000_S625000x1 := by
  show StableHlo.after hostOps0_2 (StableHlo.after hostOps0_1 (StableHlo.after hostOps0 (W0 m ρ c))) (Proc.devRef .tc main_v7) = _
  after_results <;> rfl

/-- The destination indices and the arguments are as launched when the message kernel is entered. -/
theorem W3_v3 (c : Dev nD) : W3 m ρ c (Proc.devRef .tc main_v3) = dstOf (m ((c : Thread nD τ).loc main_arg1)) := by
  show StableHlo.after hostOps0_2 (StableHlo.after hostOps0_1 (StableHlo.after hostOps0 (W0 m ρ c))) (Proc.devRef .tc main_v3) = _
  after_results <;> rfl
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results <;> rfl
theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results <;> rfl
theorem W3_arg10 (c : Dev nD) : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results <;> rfl

/-! ## Between the kernels -/

/-- The message kernel's output array is the seventh window's. -/
theorem W4_v8 (c : Dev nD) : W4 m ρ c (Proc.devRef .tc main_v8) = (dat0 (V3 m ρ) c).arrAt 6 cfg0.N :=
  W4_arr m ρ c 6

/-- The aggregate: the messages scatter-added onto a zero array at the destination indices. -/
theorem V5_v11 (c : Dev nD) :
    V5 m ρ c main_v11
      = Host.scatterAdd scatter_S50000x128_S625000x1_S625000x128_1_0_0_1
          (broadcastInDim S50000x128 ![] bcast_S_S50000x128 (constant S_ .f32 0x00000000#32))
          (broadcastInDim S625000x1 ![0] bcast_S625000_S625000x1_0 (dstOf (m ((c : Thread nD τ).loc main_arg1))))
          ((dat0 (V3 m ρ) c).arrAt 6 cfg0.N) := by
  show StableHlo.after hostOps1 (W4 m ρ c) (Proc.devRef .tc main_v11) = _
  after_results
  rw [W4_v8, W4_of_ne m ρ c main_v3 (by decide), W3_v3]

/-- The self-loop kernel's bias rows: the arguments reshaped. -/
theorem V5_v12 (c : Dev nD) : V5 m ρ c main_v12 = shapeCast S1x128 (m ((c : Thread nD τ).loc main_arg8)) shapeCasts_S128_S1x128 := by
  show StableHlo.after hostOps1 (W4 m ρ c) (Proc.devRef .tc main_v12) = _
  after_results
  rw [W4_of_ne m ρ c main_arg8 (by decide), W3_arg8]
  rfl
theorem V5_v13 (c : Dev nD) : V5 m ρ c main_v13 = shapeCast S1x128 (m ((c : Thread nD τ).loc main_arg10)) shapeCasts_S128_S1x128 := by
  show StableHlo.after hostOps1 (W4 m ρ c) (Proc.devRef .tc main_v13) = _
  after_results
  rw [W4_of_ne m ρ c main_arg10 (by decide), W3_arg10]
  rfl
theorem V5_arg0 (c : Dev nD) : V5 m ρ c main_arg0 = m ((c : Thread nD τ).loc main_arg0) := by
  show StableHlo.after hostOps1 (W4 m ρ c) (Proc.devRef .tc main_arg0) = _
  after_results
  rw [W4_of_ne m ρ c main_arg0 (by decide)]
  exact W3_arg0 m ρ c
theorem V5_arg7 (c : Dev nD) : V5 m ρ c main_arg7 = m ((c : Thread nD τ).loc main_arg7) := by
  show StableHlo.after hostOps1 (W4 m ρ c) (Proc.devRef .tc main_arg7) = _
  after_results
  rw [W4_of_ne m ρ c main_arg7 (by decide)]
  exact W3_arg7 m ρ c
theorem V5_arg9 (c : Dev nD) : V5 m ρ c main_arg9 = m ((c : Thread nD τ).loc main_arg9) := by
  show StableHlo.after hostOps1 (W4 m ρ c) (Proc.devRef .tc main_arg9) = _
  after_results
  rw [W4_of_ne m ρ c main_arg9 (by decide)]
  exact W3_arg9 m ρ c

theorem V3_arg3 (c : Dev nD) : V3 m ρ c main_arg3 = m ((c : Thread nD τ).loc main_arg3) := W3_arg3 m ρ c
theorem V3_arg5 (c : Dev nD) : V3 m ρ c main_arg5 = m ((c : Thread nD τ).loc main_arg5) := W3_arg5 m ρ c

end Cert.KernelIdeal.Host

end
-- ==== Proof.Spec.lean ====
/-
  The mathematics both programs compute, over the extended reals.

  A node or edge feature row `x : Fin 128 → EReal` goes through Linear → ReLU → Linear with torch's convention
  `y = x · Wᵀ + b`: hidden unit `h` is `max (∑ k, x k · W₁ h k + b₁ h) 0`, output feature `j` is
  `∑ h, hidden h · W₂ j h + b₂ j` (`mlpRow`). The message of edge `e` is that row function of the gathered source
  row, scaled by the edge's weight (`messages2`); a node's result is the same row function of its own features with
  the other weights, plus what the edges scattered onto the node (`nodeOut2`). The zero of the ReLU is kept as the word
  both programs print.
-/
import Idealize.ShloMosaic.PureOps.Ideal
import Idealize.ShloMosaic.Lib.ValueIdx

noncomputable section

open scoped BigOperators

namespace Cert.Spec

open Idealize.ShloMosaic Idealize.ShloMosaic.ValueIdx

/-- An extended-real array of two axes. -/
abbrev A2 (n0 n1 : Nat) : Type := (⟨2, ![n0, n1]⟩ : Shape).Idx → EReal

/-- One feature row through Linear → ReLU → Linear, read at output feature `j`. -/
def mlpRow (x : Fin 128 → EReal) (w1 : Fin 128 → Fin 128 → EReal) (b1 : Fin 128 → EReal)
    (w2 : Fin 128 → Fin 128 → EReal) (b2 : Fin 128 → EReal) (j : Fin 128) : EReal :=
  (∑ h : Fin 128, max ((∑ k : Fin 128, x k * w1 h k) + b1 h) (Ideal.ofBits .f32 0x00000000#32) * w2 j h) + b2 j

/-- Every edge's message: the row function of the edge's source row, times the edge's weight. The biases are rows
    `[1, 128]`, the edge weights a column `[625000, 1]`. -/
def messages2 (xs : A2 625000 128) (w1 : A2 128 128) (b1 : A2 1 128) (w2 : A2 128 128) (b2 : A2 1 128)
    (ew : A2 625000 1) : A2 625000 128 :=
  fun i => mlpRow (fun k => xs (ix2 (i 0) k)) (fun a b => w1 (ix2 a b)) (fun a => b1 (ix2 (0 : Fin 1) a))
    (fun a b => w2 (ix2 a b)) (fun a => b2 (ix2 (0 : Fin 1) a)) (i 1) * ew (ix2 (i 0) (0 : Fin 1))

/-- Every node's result: the row function of the node's own row, plus the aggregated messages at the node. -/
def nodeOut2 (x : A2 50000 128) (w1 : A2 128 128) (b1 : A2 1 128) (w2 : A2 128 128) (b2 : A2 1 128)
    (aggr : A2 50000 128) : A2 50000 128 :=
  fun i => mlpRow (fun k => x (ix2 (i 0) k)) (fun a b => w1 (ix2 a b)) (fun a => b1 (ix2 (0 : Fin 1) a))
    (fun a b => w2 (ix2 a b)) (fun a => b2 (ix2 (0 : Fin 1) a)) (i 1) + aggr i

end Cert.Spec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KPay.lean ====
/-
  The two kernel bodies' stored values, read at one entry of the block.
-/
import proofs.«411047_j88776974008405_1_alg».proof.Proof.Gen.KernelIdeal.Skeleton
import proofs.«411047_j88776974008405_1_alg».proof.Proof.Spec
import proofs.«411047_j88776974008405_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The layout operations at an entry -/

/-- A row `[1, b]` broadcast to `[a, b]` reads, at `(r, c)`, the row at column `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The transposed square matrix reads, at `(a, b)`, the matrix at `(b, a)`. -/
theorem transpose_sq_apply {α : Type} (w : S128x128.Idx → α) (h : S128x128.Transposes [1, 0] S128x128) (a b : Fin 128) :
    transpose S128x128 [1, 0] w h (ix2 a b) = w (ix2 b a) :=
  transpose_apply [1, 0] w h (ix2 a b) (ix2 b a) (fun c => match c with
    | ⟨0, _⟩ => rfl
    | ⟨1, _⟩ => rfl)

/-! ## The product of the message kernel: rows `25000`, contraction over the `128` features -/

/-- The left operand is read at the output's row … -/
theorem lhsM_0 (i : S25000x128.Idx) (q : dot_S25000x128_S128x128_S25000x128_1_0_0_1_n_n.contr.Idx) :
    (dot_S25000x128_S128x128_S25000x128_1_0_0_1_n_n.lhsIdx i q 0).val = (i 0).val := by
  unfold DotDims.lhsIdx
  rw [dif_neg (show ¬(0 : Fin S25000x128.rank) ∈ dot_S25000x128_S128x128_S25000x128_1_0_0_1_n_n.lhsBatch by decide),
    dif_pos (show (0 : Fin S25000x128.rank) ∈ dot_S25000x128_S128x128_S25000x128_1_0_0_1_n_n.lhsNonContracting by decide)]
  rfl

/-- … and at the contraction position along its columns. -/
theorem lhsM_1 (i : S25000x128.Idx) (q : dot_S25000x128_S128x128_S25000x128_1_0_0_1_n_n.contr.Idx) :
    (dot_S25000x128_S128x128_S25000x128_1_0_0_1_n_n.lhsIdx i q 1).val = (q ⟨0, by decide⟩).val :=
  dot_S25000x128_S128x128_S25000x128_1_0_0_1_n_n.lhsIdx_val_of_single rfl i q

/-- The right operand is read at the contraction position along its rows … -/
theorem rhsM_0 (i : S25000x128.Idx) (q : dot_S25000x128_S128x128_S25000x128_1_0_0_1_n_n.contr.Idx) :
    (dot_S25000x128_S128x128_S25000x128_1_0_0_1_n_n.rhsIdx i q 0).val = (q ⟨0, by decide⟩).val :=
  dot_S25000x128_S128x128_S25000x128_1_0_0_1_n_n.rhsIdx_val_of_single rfl i q

/-- … and at the output's column. -/
theorem rhsM_1 (i : S25000x128.Idx) (q : dot_S25000x128_S128x128_S25000x128_1_0_0_1_n_n.contr.Idx) :
    (dot_S25000x128_S128x128_S25000x128_1_0_0_1_n_n.rhsIdx i q 1).val = (i 1).val := by
  unfold DotDims.rhsIdx
  rw [dif_neg (show ¬(1 : Fin S128x128.rank) ∈ dot_S25000x128_S128x128_S25000x128_1_0_0_1_n_n.rhsBatch by decide),
    dif_pos (show (1 : Fin S128x128.rank) ∈ dot_S25000x128_S128x128_S25000x128_1_0_0_1_n_n.rhsNonContracting by decide)]
  rfl

/-- Into the zero accumulator the product reads, at `(p, j)`, the sum over `k` of left `(p, k)` times right `(k, j)`. -/
theorem matmulM_apply {φ₁ φ₂ : FTy} (l : FVec Ideal S25000x128 φ₁) (r : FVec Ideal S128x128 φ₂) (p : Fin 25000) (j : Fin 128) :
    matmul (F := Ideal) dot_S25000x128_S128x128_S25000x128_1_0_0_1_n_n none l r (constant (F := Ideal) S25000x128 .f32 0x00000000#32) (ix2 p j)
      = ∑ k : Fin 128, l (ix2 p k) * r (ix2 k j) := by
  refine (Ideal.matmul_constant_zero_apply dot_S25000x128_S128x128_S25000x128_1_0_0_1_n_n none l r (ix2 p j)).trans ?_
  rw [← Equiv.sum_comp (contrEquiv1 dot_S25000x128_S128x128_S25000x128_1_0_0_1_n_n 128 rfl rfl).symm]
  refine Finset.sum_congr rfl fun k _ => ?_
  have hk := contrEquiv1_symm_val dot_S25000x128_S128x128_S25000x128_1_0_0_1_n_n 128 rfl rfl k
  have el : dot_S25000x128_S128x128_S25000x128_1_0_0_1_n_n.lhsIdx (ix2 p j)
      ((contrEquiv1 dot_S25000x128_S128x128_S25000x128_1_0_0_1_n_n 128 rfl rfl).symm k) = ix2 p k :=
    funext fun a => Fin.ext (by
      match a with
      | ⟨0, _⟩ => exact lhsM_0 _ _
      | ⟨1, _⟩ => exact (lhsM_1 _ _).trans hk)
  have er : dot_S25000x128_S128x128_S25000x128_1_0_0_1_n_n.rhsIdx (ix2 p j)
      ((contrEquiv1 dot_S25000x128_S128x128_S25000x128_1_0_0_1_n_n 128 rfl rfl).symm k) = ix2 k j :=
    funext fun a => Fin.ext (by
      match a with
      | ⟨0, _⟩ => exact (rhsM_0 _ _).trans hk
      | ⟨1, _⟩ => exact rhsM_1 _ _)
  rw [el, er]

/-! ## The product of the self-loop kernel: rows `5000`, contraction over the `128` features -/

/-- The left operand is read at the output's row … -/
theorem lhsS_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the contraction position along its columns. -/
theorem lhsS_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand is read at the contraction position along its rows … -/
theorem rhsS_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- … and at the output's column. -/
theorem rhsS_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into the zero accumulator the product reads, at `(p, j)`, the sum over `k` of left `(p, k)` times right `(k, j)`. -/
theorem matmulS_apply {φ₁ φ₂ : FTy} (l : FVec Ideal S5000x128 φ₁) (r : FVec Ideal S128x128 φ₂) (p : Fin 5000) (j : Fin 128) :
    matmul (F := Ideal) dot_S5000x128_S128x128_S5000x128_1_0_0_1_n_n none l r (constant (F := Ideal) S5000x128 .f32 0x00000000#32) (ix2 p j)
      = ∑ k : Fin 128, l (ix2 p k) * r (ix2 k j) := by
  refine (Ideal.matmul_constant_zero_apply dot_S5000x128_S128x128_S5000x128_1_0_0_1_n_n none l r (ix2 p j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j)
      ((contrEquiv1 dot_S5000x128_S128x128_S5000x128_1_0_0_1_n_n 128 rfl rfl).symm k) = ix2 p k :=
    funext fun a => Fin.ext (by
      match a with
      | ⟨0, _⟩ => exact lhsS_0 _ _
      | ⟨1, _⟩ => exact (lhsS_1 _ _).trans hk)
  have er : dot_S5000x128_S128x128_S5000x128_1_0_0_1_n_n.rhsIdx (ix2 p j)
      ((contrEquiv1 dot_S5000x128_S128x128_S5000x128_1_0_0_1_n_n 128 rfl rfl).symm k) = ix2 k j :=
    funext fun a => Fin.ext (by
      match a with
      | ⟨0, _⟩ => exact (rhsS_0 _ _).trans hk
      | ⟨1, _⟩ => exact rhsS_1 _ _)
  rw [el, er]

/-! ## The two stored blocks at an entry -/

/-- The message kernel's stored block at row `p`, feature `j`: the row function of the block's row `p`, times the
    edge-weight column's entry of that row. -/
theorem pay0_apply (x0 : Vec Ideal S25000x128 .f32) (x1 : Vec Ideal S128x128 .f32) (x2 : Vec Ideal S1x128 .f32)
    (x3 : Vec Ideal S128x128 .f32) (x4 : Vec Ideal S1x128 .f32) (x5 : Vec Ideal S25000x1 .f32) (p : Fin 25000) (j : Fin 128) :
    k0_pay1 (F := Ideal) x0 x1 x2 x3 x4 x5 (ix2 p j)
      = Cert.Spec.mlpRow (fun k => x0 (ix2 p k)) (fun a b => x1 (ix2 a b)) (fun a => x2 (ix2 (0 : Fin 1) a))
          (fun a b => x3 (ix2 a b)) (fun a => x4 (ix2 (0 : Fin 1) a)) j * x5 (ix2 p (0 : Fin 1)) := by
  unfold k0_pay1 Cert.Spec.mlpRow
  rw [mulf_apply, addf_apply, matmulM_apply, Keepdims.broadcastTo_a1_ab_apply, broadcastTo_1b_ab_apply, shapeCast_self,
    shapeCast_self, shapeCast_self, shapeCast_self]
  refine congrArg (· * x5 (ix2 p (0 : Fin 1))) (congrArg (· + x4 (ix2 (0 : Fin 1) j)) (Finset.sum_congr rfl fun h _ => ?_))
  rw [truncf_apply, maximumf_apply, addf_apply, matmulM_apply, broadcast_apply, broadcastTo_1b_ab_apply, transpose_sq_apply,
    truncf_apply, Ideal.ofBits_def]
  refine congrArg (· * x3 (ix2 j h)) (congrArg (max · (Ideal.ofBits .f32 0x00000000#32))
    (congrArg (· + x2 (ix2 (0 : Fin 1) h)) (Finset.sum_congr rfl fun k _ => ?_)))
  rw [truncf_apply, transpose_sq_apply, truncf_apply]

/-- The self-loop kernel's stored block at row `p`, feature `j`: the row function of the block's row `p`, plus the
    aggregate block's entry. -/
theorem pay1_apply (x0 : Vec Ideal S5000x128 .f32) (x1 : Vec Ideal S128x128 .f32) (x2 : Vec Ideal S1x128 .f32)
    (x3 : Vec Ideal S128x128 .f32) (x4 : Vec Ideal S1x128 .f32) (x5 : Vec Ideal S5000x128 .f32) (p : Fin 5000) (j : Fin 128) :
    k1_pay1 (F := Ideal) x0 x1 x2 x3 x4 x5 (ix2 p j)
      = Cert.Spec.mlpRow (fun k => x0 (ix2 p k)) (fun a b => x1 (ix2 a b)) (fun a => x2 (ix2 (0 : Fin 1) a))
          (fun a b => x3 (ix2 a b)) (fun a => x4 (ix2 (0 : Fin 1) a)) j + x5 (ix2 p j) := by
  unfold k1_pay1 Cert.Spec.mlpRow
  rw [addf_apply, addf_apply, matmulS_apply, broadcastTo_1b_ab_apply, shapeCast_self, shapeCast_self, shapeCast_self]
  refine congrArg (· + x5 (ix2 p j)) (congrArg (· + x4 (ix2 (0 : Fin 1) j)) (Finset.sum_congr rfl fun h _ => ?_))
  rw [truncf_apply, maximumf_apply, addf_apply, matmulS_apply, broadcast_apply, broadcastTo_1b_ab_apply, transpose_sq_apply,
    truncf_apply, Ideal.ofBits_def]
  refine congrArg (· * x3 (ix2 j h)) (congrArg (max · (Ideal.ofBits .f32 0x00000000#32))
    (congrArg (· + x2 (ix2 (0 : Fin 1) h)) (Finset.sum_congr rfl fun k _ => ?_)))
  rw [truncf_apply, transpose_sq_apply, truncf_apply]

end Cert.KernelIdeal.Pay

end
-- ==== Proof.KBlocks0.lean ====
/-
  The message kernel's blocks put together: after the last grid point the output array holds every edge's message.
-/
import proofs.«411047_j88776974008405_1_alg».proof.Proof.Gen.KernelIdeal.Frame
import proofs.«411047_j88776974008405_1_alg».proof.Proof.KPay
import proofs.«411047_j88776974008405_1_alg».proof.Proof.Spec
import Idealize.ShloMosaic.Lib.Pipeline.Value
import Idealize.ShloMosaic.Lib.ValueIdx

set_option maxRecDepth 16384

noncomputable section

open scoped BigOperators

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset pair, as the constant function. -/
theorem zero_offsets : (![0, 0] : Fin 2 → Nat) = fun _ => 0 := funext fun a => by fin_cases a <;> rfl

/-- The block index of every window at grid point `t`: the edge rows, the edge-weight column and the output move
    with `t` along axis 0; the weight matrices and bias rows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The source-row block at point `t` is rows `25000 t … 25000 t + 24999` of the gathered source rows. -/
theorem rows_block (c : Dev nD) (t : Fin cfg0.N) (y : S25000x128.Idx) (i : S625000x128.Idx)
    (h0 : (i 0).val = 25000 * t.val + (y 0).val) (h1 : (i 1).val = (y 1).val) :
    (iblk0 (F := Ideal) V c 0 t : Vec Ideal S25000x128 .f32) y = (V c main_v4 : S625000x128.Idx → EReal) i := by
  obtain ⟨e0, e1, -⟩ := block_indices t
  unfold iblk0
  rw [View.read_apply]
  show V c main_v4 _ = V c main_v4 _
  congr 1
  funext a
  apply Fin.ext
  match a with
  | ⟨0, _⟩ => show win0_0.index t 0 * 25000 + 1 * (y 0).val = (i 0).val; rw [e0, h0]; omega
  | ⟨1, _⟩ => show win0_0.index t 1 * 128 + 1 * (y 1).val = (i 1).val; rw [e1, h1]; omega

/-- The first weight matrix's block is the whole matrix at every point. -/
theorem weights1_block (c : Dev nD) (t : Fin cfg0.N) (y : S128x128.Idx) :
    (iblk0 (F := Ideal) V c 1 t : Vec Ideal S128x128 .f32) y = (V c main_arg3 : S128x128.Idx → EReal) y := by
  obtain ⟨-, -, e0, e1, -⟩ := block_indices t
  unfold iblk0
  rw [View.read_apply]
  show V c main_arg3 _ = V c main_arg3 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The first bias row's block is the whole row at every point. -/
theorem bias1_block (c : Dev nD) (t : Fin cfg0.N) (y : S1x128.Idx) :
    (iblk0 (F := Ideal) V c 2 t : Vec Ideal S1x128 .f32) y = (V c main_v5 : S1x128.Idx → EReal) y := by
  obtain ⟨-, -, -, -, e0, e1, -⟩ := block_indices t
  unfold iblk0
  rw [View.read_apply]
  show V c main_v5 _ = V c main_v5 _
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- The second weight matrix's block is the whole matrix at every point. -/
theorem weights2_block (c : Dev nD) (t : Fin cfg0.N) (y : S128x128.Idx) :
    (iblk0 (F := Ideal) V c 3 t : Vec Ideal S128x128 .f32) y = (V c main_arg5 : S128x128.Idx → EReal) y := by
  obtain ⟨-, -, -, -, -, -, e0, e1, -⟩ := block_indices t
  unfold iblk0
  rw [View.read_apply]
  show V c main_arg5 _ = V c main_arg5 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The second bias row's block is the whole row at every point. -/
theorem bias2_block (c : Dev nD) (t : Fin cfg0.N) (y : S1x128.Idx) :
    (iblk0 (F := Ideal) V c 4 t : Vec Ideal S1x128 .f32) y = (V c main_v6 : S1x128.Idx → EReal) y := by
  obtain ⟨-, -, -, -, -, -, -, -, e0, e1, -⟩ := block_indices t
  unfold iblk0
  rw [View.read_apply]
  show V c main_v6 _ = V c main_v6 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The edge-weight block at point `t` is rows `25000 t … 25000 t + 24999` of the edge-weight column. -/
theorem edge_weights_block (c : Dev nD) (t : Fin cfg0.N) (y : S25000x1.Idx) (i : S625000x1.Idx)
    (h0 : (i 0).val = 25000 * t.val + (y 0).val) (h1 : (i 1).val = (y 1).val) :
    (iblk0 (F := Ideal) V c 5 t : Vec Ideal S25000x1 .f32) y = (V c main_v7 : S625000x1.Idx → EReal) i := by
  obtain ⟨-, -, -, -, -, -, -, -, -, -, e0, e1, -⟩ := block_indices t
  unfold iblk0
  rw [View.read_apply]
  show V c main_v7 _ = V c main_v7 _
  congr 1
  funext a
  apply Fin.ext
  match a with
  | ⟨0, _⟩ => show win0_5.index t 0 * 25000 + 1 * (y 0).val = (i 0).val; rw [e0, h0]; omega
  | ⟨1, _⟩ => show win0_5.index t 1 * 1 + 1 * (y 1).val = (i 1).val; rw [e1, h1]; omega

/-- The row function of a block's row `p` at feature `q`, times the block's edge weight of that row, is the message at
    array index `i` as soon as the block's row `p` is the array's row `i 0` (source rows and edge weights), the
    weights and biases are the whole arrays, and `i`'s feature is `q`. -/
theorem messages_of_blocks (xs : Cert.Spec.A2 625000 128) (w1 : Cert.Spec.A2 128 128) (b1 : Cert.Spec.A2 1 128)
    (w2 : Cert.Spec.A2 128 128) (b2 : Cert.Spec.A2 1 128) (ew : Cert.Spec.A2 625000 1)
    (x0 : Vec Ideal S25000x128 .f32) (x1 : Vec Ideal S128x128 .f32) (x2 : Vec Ideal S1x128 .f32)
    (x3 : Vec Ideal S128x128 .f32) (x4 : Vec Ideal S1x128 .f32) (x5 : Vec Ideal S25000x1 .f32)
    (p : Fin 25000) (q : Fin 128) (i : S625000x128.Idx)
    (h0 : ∀ k : Fin 128, x0 (ix2 p k) = xs (ix2 (i 0) k))
    (h1 : ∀ y, x1 y = w1 y) (h2 : ∀ y, x2 y = b1 y) (h3 : ∀ y, x3 y = w2 y) (h4 : ∀ y, x4 y = b2 y)
    (h5 : x5 (ix2 p (0 : Fin 1)) = ew (ix2 (i 0) (0 : Fin 1))) (hq : i 1 = q) :
    Cert.Spec.mlpRow (fun k => x0 (ix2 p k)) (fun a b => x1 (ix2 a b)) (fun a => x2 (ix2 (0 : Fin 1) a))
        (fun a b => x3 (ix2 a b)) (fun a => x4 (ix2 (0 : Fin 1) a)) q * x5 (ix2 p (0 : Fin 1))
      = Cert.Spec.messages2 xs w1 b1 w2 b2 ew i := by
  obtain rfl : x1 = w1 := funext h1
  obtain rfl : x2 = b1 := funext h2
  obtain rfl : x3 = w2 := funext h3
  obtain rfl : x4 = b2 := funext h4
  have e0 : (fun k => x0 (ix2 p k)) = fun k => xs (ix2 (i 0) k) := funext h0
  unfold Cert.Spec.messages2
  rw [e0, h5, hq]

/-- What grid point `t` writes back is block `t` of `messages2` of the entry arrays: entry (p, q) of the stored block
    is the message of edge `25000 t + p` at feature `q`. -/
theorem flushed_messages (c : Dev nD) (t : Fin cfg0.N) :
    (dat0 (F := Ideal) V c).flushed 6 t = ((cfg0.win 6).blk t).view.read (Elt Ideal)
      (Cert.Spec.messages2 (V c main_v4) (V c main_arg3) (V c main_v5) (V c main_arg5) (V c main_v6) (V c main_v7)) := by
  show (cfg0.win 6).cut (grid0.coords t) ((dat0 V c).after 6 t) = _
  rw [after0_6]
  unfold out0_6
  rw [View.canon_unit_zero zero_offsets]
  simp only [View.ld_unit_zero (S := S25000x128) zero_offsets, View.ld_unit_zero (S := S128x128) zero_offsets,
    View.ld_unit_zero (S := S1x128) zero_offsets, View.ld_unit_zero (S := S25000x1) zero_offsets]
  refine funext fun (j : S25000x128.Idx) => ?_
  obtain ⟨p, q, rfl⟩ : ∃ (p : Fin 25000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = Cert.Spec.messages2 (V c main_v4) (V c main_arg3) (V c main_v5) (V c main_arg5) (V c main_v6) (V c main_v7)
        (((cfg0.win 6).blk t).view.emb (ix2 p q))
  refine (Cert.KernelIdeal.Pay.pay0_apply _ _ _ _ _ _ p q).trans ?_
  obtain ⟨-, -, -, -, -, -, -, -, -, -, -, -, e0, e1⟩ := block_indices t
  have hi0 : ((((cfg0.win 6).blk t).view.emb (ix2 p q)) 0).val = 25000 * t.val + p.val := by
    show win0_6.index t 0 * 25000 + 1 * p.val = _
    rw [e0]; omega
  have hi1 : ((((cfg0.win 6).blk t).view.emb (ix2 p q)) 1).val = q.val := by
    show win0_6.index t 1 * 128 + 1 * q.val = _
    rw [e1]; omega
  refine messages_of_blocks _ _ _ _ _ _ _ _ _ _ _ _ p q _ (fun k => ?_) (fun y => ?_) (fun y => ?_) (fun y => ?_) (fun y => ?_) ?_ (Fin.ext hi1)
  · exact rows_block V c t _ _ hi0 rfl
  · exact weights1_block V c t y
  · exact bias1_block V c t y
  · exact weights2_block V c t y
  · exact bias2_block V c t y
  · exact edge_weights_block V c t _ _ hi0 rfl

/-- An array index lies in point `t`'s output block iff each coordinate lies in the block's range on its axis. -/
theorem mem_block (t : Fin cfg0.N) (i : S625000x128.Idx) :
    i ∈ ((cfg0.win 6).blk t).view.set ↔ ∀ a : Fin 2, win0_6.index t a * S25000x128.size a ≤ (i a).val
      ∧ (i a).val < win0_6.index t a * S25000x128.size a + S25000x128.size a := by
  show i ∈ ((View.whole main_v8).slice (win0_6.rect t)).set ↔ _
  rw [View.set_slice_whole, Rect.mem_set_unit]
  exact Iff.rfl

/-- Every index of the message array lies in some point's output block: row `r` in the block of point `r / 25000`. -/
theorem row_covered (i : S625000x128.Idx) :
    ∃ t : Fin cfg0.N, (cfg0.win 6).flush t = true ∧ i ∈ ((cfg0.win 6).blk t).view.set := by
  have hi0 : (i 0).val < 625000 := (i 0).isLt
  have hi1 : (i 1).val < 128 := (i 1).isLt
  have hN : cfg0.N = 25 := by decide
  have ht : (i 0).val / 25000 < cfg0.N := by rw [hN]; omega
  obtain ⟨-, -, -, -, -, -, -, -, -, -, -, -, e0, e1⟩ := block_indices ⟨(i 0).val / 25000, ht⟩
  refine ⟨⟨(i 0).val / 25000, ht⟩, flush0_6 _, ?_⟩
  rw [mem_block]
  intro a
  match a with
  | ⟨0, _⟩ =>
    show win0_6.index ⟨(i 0).val / 25000, ht⟩ 0 * 25000 ≤ (i 0).val
      ∧ (i 0).val < win0_6.index ⟨(i 0).val / 25000, ht⟩ 0 * 25000 + 25000
    rw [e0]
    show (i 0).val / 25000 * 25000 ≤ (i 0).val ∧ (i 0).val < (i 0).val / 25000 * 25000 + 25000
    omega
  | ⟨1, _⟩ =>
    show win0_6.index ⟨(i 0).val / 25000, ht⟩ 1 * 128 ≤ (i 1).val
      ∧ (i 1).val < win0_6.index ⟨(i 0).val / 25000, ht⟩ 1 * 128 + 128
    rw [e1]
    omega

/-- After the 25 grid points the message kernel's output array is `messages2` of the arrays the region was entered
    with: the gathered source rows, the two weight matrices, the two bias rows and the edge-weight column. -/
theorem final0 (c : Dev nD) :
    (dat0 (F := Ideal) V c).arrAt 6 cfg0.N
      = Cert.Spec.messages2 (V c main_v4) (V c main_arg3) (V c main_v5) (V c main_arg5) (V c main_v6) (V c main_v7) :=
  (dat0 (F := Ideal) V c).arrAt_eq_of_cover 6
    (Cert.Spec.messages2 (V c main_v4) (V c main_arg3) (V c main_v5) (V c main_arg5) (V c main_v6) (V c main_v7))
    (fun t _ => flushed_messages V c t) row_covered

end Cert.KernelIdeal.Blocks0

end
-- ==== Proof.KBlocks1.lean ====
/-
  The self-loop kernel's blocks put together: after the last grid point the output array holds every node's result.
-/
import proofs.«411047_j88776974008405_1_alg».proof.Proof.Gen.KernelIdeal.Frame
import proofs.«411047_j88776974008405_1_alg».proof.Proof.KPay
import proofs.«411047_j88776974008405_1_alg».proof.Proof.Spec
import Idealize.ShloMosaic.Lib.Pipeline.Value
import Idealize.ShloMosaic.Lib.ValueIdx

set_option maxRecDepth 16384

noncomputable section

open scoped BigOperators

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two zero offsets of a whole-block access, as a constant function. -/
theorem zero_offsets : (![0, 0] : Fin 2 → Nat) = fun _ => 0 := funext fun a => by fin_cases a <;> rfl

/-- The seven block index maps over the 10 grid points: the node features, the aggregated messages and the output move
    with the point along the rows; the weights and biases stay at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The node-feature block of point `t`: its row `p` is row `5000 t + p` of the feature array. -/
theorem features_block (c : Dev nD) (t : Fin cfg1.N) (x : S5000x128.Idx) (k : S50000x128.Idx)
    (h0 : (k 0).val = 5000 * t.val + (x 0).val) (h1 : (k 1).val = (x 1).val) :
    (iblk1 V c 0 t : Vec Ideal S5000x128 .f32) x = (V c main_arg0 : S50000x128.Idx → Elt Ideal .f32) k := by
  obtain ⟨e0, e1, -⟩ := index_maps t
  unfold iblk1
  rw [View.read_apply]
  show V c main_arg0 _ = V c main_arg0 _
  congr 1
  funext a
  apply Fin.ext
  match a with
  | ⟨0, _⟩ => show win1_0.index t (0 : Fin 2) * 5000 + 1 * (x 0).val = (k 0).val; omega
  | ⟨1, _⟩ => show win1_0.index t (1 : Fin 2) * 128 + 1 * (x 1).val = (k 1).val; omega

/-- The first weight matrix's block is the whole matrix at every point. -/
theorem weights1_block (c : Dev nD) (t : Fin cfg1.N) (x : S128x128.Idx) :
    (iblk1 V c 1 t : Vec Ideal S128x128 .f32) x = (V c main_arg7 : S128x128.Idx → Elt Ideal .f32) x := by
  obtain ⟨-, -, e0, e1, -⟩ := index_maps t
  unfold iblk1
  rw [View.read_apply]
  show V c main_arg7 _ = V c main_arg7 _
  congr 1
  funext a
  apply Fin.ext
  match a with
  | ⟨0, _⟩ => show win1_1.index t (0 : Fin 2) * 128 + 1 * (x 0).val = (x 0).val; omega
  | ⟨1, _⟩ => show win1_1.index t (1 : Fin 2) * 128 + 1 * (x 1).val = (x 1).val; omega

/-- The first bias row's block is the whole row at every point. -/
theorem bias1_block (c : Dev nD) (t : Fin cfg1.N) (x : S1x128.Idx) :
    (iblk1 V c 2 t : Vec Ideal S1x128 .f32) x = (V c main_v12 : S1x128.Idx → Elt Ideal .f32) x := by
  obtain ⟨-, -, -, -, e0, e1, -⟩ := index_maps t
  unfold iblk1
  rw [View.read_apply]
  show V c main_v12 _ = V c main_v12 _
  congr 1
  funext a
  apply Fin.ext
  match a with
  | ⟨0, _⟩ => show win1_2.index t (0 : Fin 2) * 1 + 1 * (x 0).val = (x 0).val; omega
  | ⟨1, _⟩ => show win1_2.index t (1 : Fin 2) * 128 + 1 * (x 1).val = (x 1).val; omega

/-- The second weight matrix's block is the whole matrix at every point. -/
theorem weights2_block (c : Dev nD) (t : Fin cfg1.N) (x : S128x128.Idx) :
    (iblk1 V c 3 t : Vec Ideal S128x128 .f32) x = (V c main_arg9 : S128x128.Idx → Elt Ideal .f32) x := by
  obtain ⟨-, -, -, -, -, -, e0, e1, -⟩ := index_maps t
  unfold iblk1
  rw [View.read_apply]
  show V c main_arg9 _ = V c main_arg9 _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- The second bias row's block is the whole row at every point. -/
theorem bias2_block (c : Dev nD) (t : Fin cfg1.N) (x : S1x128.Idx) :
    (iblk1 V c 4 t : Vec Ideal S1x128 .f32) x = (V c main_v13 : S1x128.Idx → Elt Ideal .f32) x := by
  obtain ⟨-, -, -, -, -, -, -, -, e0, e1, -⟩ := index_maps t
  unfold iblk1
  rw [View.read_apply]
  show V c main_v13 _ = V c main_v13 _
  congr 1
  funext a
  apply Fin.ext
  match a with
  | ⟨0, _⟩ => show win1_4.index t (0 : Fin 2) * 1 + 1 * (x 0).val = (x 0).val; omega
  | ⟨1, _⟩ => show win1_4.index t (1 : Fin 2) * 128 + 1 * (x 1).val = (x 1).val; omega

/-- The aggregated-message block of point `t`: its row `p` is row `5000 t + p` of the aggregate array. -/
theorem aggregate_block (c : Dev nD) (t : Fin cfg1.N) (x : S5000x128.Idx) (k : S50000x128.Idx)
    (h0 : (k 0).val = 5000 * t.val + (x 0).val) (h1 : (k 1).val = (x 1).val) :
    (iblk1 V c 5 t : Vec Ideal S5000x128 .f32) x = (V c main_v11 : S50000x128.Idx → Elt Ideal .f32) k := by
  obtain ⟨-, -, -, -, -, -, -, -, -, -, e0, e1, -⟩ := index_maps t
  unfold iblk1
  rw [View.read_apply]
  show V c main_v11 _ = V c main_v11 _
  congr 1
  funext a
  apply Fin.ext
  match a with
  | ⟨0, _⟩ => show win1_5.index t (0 : Fin 2) * 5000 + 1 * (x 0).val = (k 0).val; omega
  | ⟨1, _⟩ => show win1_5.index t (1 : Fin 2) * 128 + 1 * (x 1).val = (k 1).val; omega

/-- Where row `p`, feature `q` of the output block of point `t` sits in the output array: row `5000 t + p`, feature `q`. -/
theorem output_block_entry (t : Fin cfg1.N) (p : Fin 5000) (q : Fin 128) (r : Fin 50000) (hr : r.val = 5000 * t.val + p.val) :
    (((cfg1.win 6).blk t).view.emb (ix2 p q) : S50000x128.Idx) = ix2 r q := by
  obtain ⟨-, -, -, -, -, -, -, -, -, -, -, -, e0, e1⟩ := index_maps t
  funext a
  apply Fin.ext
  match a with
  | ⟨0, _⟩ => show win1_6.index t (0 : Fin 2) * 5000 + 1 * p.val = r.val; omega
  | ⟨1, _⟩ => show win1_6.index t (1 : Fin 2) * 128 + 1 * q.val = q.val; omega

/-- The row function depends on its arguments only through their values. -/
theorem mlpRow_congr {x x' : Fin 128 → EReal} {w1 w1' : Fin 128 → Fin 128 → EReal} {b1 b1' : Fin 128 → EReal}
    {w2 w2' : Fin 128 → Fin 128 → EReal} {b2 b2' : Fin 128 → EReal} (hx : x = x') (hw1 : w1 = w1') (hb1 : b1 = b1')
    (hw2 : w2 = w2') (hb2 : b2 = b2') (j : Fin 128) :
    Cert.Spec.mlpRow x w1 b1 w2 b2 j = Cert.Spec.mlpRow x' w1' b1' w2' b2' j := by
  subst hx hw1 hb1 hw2 hb2; rfl

/-- What point `t` writes back is block `t` of `nodeOut2` of the arrays the region was entered with. -/
theorem flushed_eq (c : Dev nD) (t : Fin cfg1.N) :
    (dat1 (F := Ideal) V c).flushed 6 t = ((cfg1.win 6).blk t).view.read (Elt Ideal)
      (Cert.Spec.nodeOut2 (V c main_arg0) (V c main_arg7) (V c main_v12) (V c main_arg9) (V c main_v13) (V c main_v11)) := by
  show (cfg1.win 6).cut (grid1.coords t) ((dat1 (F := Ideal) V c).after 6 t) = _
  rw [after1_6]
  unfold out1_6
  rw [View.canon_unit_zero zero_offsets]
  simp only [View.ld_unit_zero (S := S5000x128) zero_offsets, View.ld_unit_zero (S := S128x128) zero_offsets, View.ld_unit_zero (S := S1x128) zero_offsets]
  funext j
  revert j
  show ∀ j : S5000x128.Idx, k1_pay1 (F := Ideal) (iblk1 V c 0 t) (iblk1 V c 1 t) (iblk1 V c 2 t) (iblk1 V c 3 t) (iblk1 V c 4 t) (iblk1 V c 5 t) j
      = Cert.Spec.nodeOut2 (V c main_arg0) (V c main_arg7) (V c main_v12) (V c main_arg9) (V c main_v13) (V c main_v11) (((cfg1.win 6).blk t).view.emb j)
  intro j
  obtain ⟨p, q, rfl⟩ : ∃ (p : Fin 5000) (q : Fin 128), j = ix2 p q := ⟨j 0, j 1, eq_ix2 j⟩
  have ht : t.val < 10 := lt_of_lt_of_eq t.isLt N_1
  have hp : p.val < 5000 := p.isLt
  have hr : 5000 * t.val + p.val < 50000 := by omega
  refine Eq.trans ?_ (congrArg (Cert.Spec.nodeOut2 (V c main_arg0) (V c main_arg7) (V c main_v12) (V c main_arg9) (V c main_v13) (V c main_v11))
    (output_block_entry t p q ⟨5000 * t.val + p.val, hr⟩ rfl)).symm
  refine (Pay.pay1_apply _ _ _ _ _ _ p q).trans ?_
  show _ = Cert.Spec.mlpRow (fun k => V c main_arg0 (ix2 (⟨5000 * t.val + p.val, hr⟩ : Fin 50000) k)) (fun a b => V c main_arg7 (ix2 a b))
      (fun a => V c main_v12 (ix2 (0 : Fin 1) a)) (fun a b => V c main_arg9 (ix2 a b)) (fun a => V c main_v13 (ix2 (0 : Fin 1) a)) q
    + V c main_v11 (ix2 (⟨5000 * t.val + p.val, hr⟩ : Fin 50000) q)
  exact congrArg₂ (· + ·)
    (mlpRow_congr (funext fun k => features_block V c t _ _ rfl rfl) (funext fun a => funext fun b => weights1_block V c t _)
      (funext fun a => bias1_block V c t _) (funext fun a => funext fun b => weights2_block V c t _)
      (funext fun a => bias2_block V c t _) q)
    (aggregate_block V c t _ _ rfl rfl)

/-- An index of the output array is in point `t`'s block iff each coordinate is in the block's range on its axis. -/
theorem mem_block (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v14).slice (win1_6.rect t)).set ↔ _
  rw [View.set_slice_whole, Rect.mem_set_unit]
  exact Iff.rfl

/-- Every row of the output array is in the block of the point `row / 5000`, which writes its block back. -/
theorem blocks_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hq : (i 0).val / 5000 < cfg1.N := lt_of_lt_of_eq (by omega : (i 0).val / 5000 < 10) N_1.symm
  obtain ⟨-, -, -, -, -, -, -, -, -, -, -, -, e0, e1⟩ := index_maps ⟨(i 0).val / 5000, hq⟩
  refine ⟨⟨(i 0).val / 5000, hq⟩, flush1_6 _, ?_⟩
  rw [mem_block]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hq⟩ (1 : Fin 2) * 128 ≤ (i 1).val
      ∧ (i 1).val < win1_6.index ⟨(i 0).val / 5000, hq⟩ (1 : Fin 2) * 128 + 128
    rw [e1]; omega

/-- After the 10 grid points the self-loop kernel's output array is `nodeOut2` of the arrays the region was entered
    with: the node features, the two weight matrices, the two bias rows and the aggregated messages. -/
theorem final1 (c : Dev nD) :
    (dat1 (F := Ideal) V c).arrAt 6 cfg1.N
      = Cert.Spec.nodeOut2 (V c main_arg0) (V c main_arg7) (V c main_v12) (V c main_arg9) (V c main_v13) (V c main_v11) :=
  (dat1 (F := Ideal) V c).arrAt_eq_of_cover 6
    (Cert.Spec.nodeOut2 (V c main_arg0) (V c main_arg7) (V c main_v12) (V c main_arg9) (V c main_v13) (V c main_v11))
    (fun t _ => flushed_eq V c t) blocks_cover

end Cert.KernelIdeal.Blocks1

end
-- ==== Proof.RefSpec.lean ====
/-
  The reference's stages as the same row function: its messages and its result.
-/
import proofs.«411047_j88776974008405_1_alg».proof.Proof.Gen.ReferenceIdeal.Read
import proofs.«411047_j88776974008405_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's messages (the stage scattered onto the nodes) are `messages2` of the gathered rows, the message
    weights, the bias rows as the reference broadcasts them and the edge-weight column. -/
theorem ref_msg (x0 : (⟨S50000x128, .f32⟩ : BufTy).Contents (Elt Ideal)) (x1 : (⟨S2x625000, .i32⟩ : BufTy).Contents (Elt Ideal))
    (x2 : (⟨S625000, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v24 (F := Ideal) x0 x1 x2 x3 x4 x5 x6
      = Cert.Spec.messages2 (val_main_v10 (F := Ideal) x0 x1) x3 (val_main_v13 (F := Ideal) x4) x5
          (val_main_v19 (F := Ideal) x6) (val_main_v22 (F := Ideal) x2) := by
  -- Entry by entry: fix an edge `p` and an output feature `q`.
  funext i
  obtain ⟨p, q, rfl⟩ : ∃ p q, i = ix2 p q := ⟨i 0, i 1, eq_ix2 i⟩
  -- The stages' index maps at these coordinates: the second contraction reads row `p` of the hidden layer against
  -- row `q` of the transposed second weights, the first reads row `p` of the gathered rows against row `h` of the
  -- transposed first weights; each bias row is read at row 0, the edge-weight column at column 0.
  have e18l : ∀ h : Fin 128, lidx_main_v18 (ix2 p q) h = ix2 p h := fun h =>
    funext fun a => Fin.ext (by match a with | ⟨0, _⟩ => rfl | ⟨1, _⟩ => rfl)
  have e18r : ∀ h : Fin 128, ridx_main_v18 (ix2 p q) h = ix2 h q := fun h =>
    funext fun a => Fin.ext (by match a with | ⟨0, _⟩ => rfl | ⟨1, _⟩ => rfl)
  have e17 : ∀ h : Fin 128, idx_main_v17 (ix2 h q) = ix2 q h := fun h =>
    funext fun a => Fin.ext (by match a with | ⟨0, _⟩ => rfl | ⟨1, _⟩ => rfl)
  have e12l : ∀ h k : Fin 128, lidx_main_v12 (ix2 p h) k = ix2 p k := fun h k =>
    funext fun a => Fin.ext (by match a with | ⟨0, _⟩ => rfl | ⟨1, _⟩ => rfl)
  have e12r : ∀ h k : Fin 128, ridx_main_v12 (ix2 p h) k = ix2 k h := fun h k =>
    funext fun a => Fin.ext (by match a with | ⟨0, _⟩ => rfl | ⟨1, _⟩ => rfl)
  have e11 : ∀ h k : Fin 128, idx_main_v11 (ix2 k h) = ix2 h k := fun h k =>
    funext fun a => Fin.ext (by match a with | ⟨0, _⟩ => rfl | ⟨1, _⟩ => rfl)
  have e14 : ∀ h : Fin 128, idx_main_v14 (ix2 p h) = ix2 (0 : Fin 1) h := fun h =>
    funext fun a => Fin.ext (by match a with | ⟨0, _⟩ => rfl | ⟨1, _⟩ => rfl)
  have e20 : idx_main_v20 (ix2 p q) = ix2 (0 : Fin 1) q :=
    funext fun a => Fin.ext (by match a with | ⟨0, _⟩ => rfl | ⟨1, _⟩ => rfl)
  have e23 : idx_main_v23 (ix2 p q) = ix2 p (0 : Fin 1) :=
    funext fun a => Fin.ext (by match a with | ⟨0, _⟩ => rfl | ⟨1, _⟩ => rfl)
  -- The outer layer: (second contraction + bias) times the edge weight.
  rw [val_main_v24_apply, val_main_v21_apply, val_main_v18_apply, val_main_v20_apply, val_main_v23_apply, e20, e23]
  unfold Cert.Spec.messages2 Cert.Spec.mlpRow
  simp only [Ideal.mulf_def, Ideal.addf_def]
  refine congrArg (fun t => (t + val_main_v19 (F := Ideal) x6 (ix2 (0 : Fin 1) q)) * val_main_v22 (F := Ideal) x2 (ix2 p (0 : Fin 1))) ?_
  -- Hidden unit by hidden unit: the larger of (first contraction + bias) and the zero, times the second weight.
  refine Finset.sum_congr rfl fun h _ => ?_
  rw [e18l, e18r, val_main_v16_apply, val_main_v17_apply, e17, val_main_v15_apply, val_main_v12_apply,
    val_main_v14_apply, e14, val_main_call0_v0_apply, val_main_call0_cst_apply]
  simp only [Ideal.maximumf_def, Ideal.addf_def, Ideal.ofBits_def]
  refine congrArg (fun t => max (t + val_main_v13 (F := Ideal) x4 (ix2 (0 : Fin 1) h)) (Ideal.ofBits .f32 0x00000000#32) * x5 (ix2 q h)) ?_
  -- Term by term of the first contraction: the transposed weight at `(k, h)` is the weight at `(h, k)`.
  refine Finset.sum_congr rfl fun k _ => ?_
  rw [e12l, e12r, val_main_v11_apply, e11]

/-- The reference's result is `nodeOut2` of the node features, the self-loop weights, the bias rows as the reference
    broadcasts them and the scattered messages: the sum of the two terms in the other order. -/
theorem ref_out (x0 : (⟨S50000x128, .f32⟩ : BufTy).Contents (Elt Ideal)) (x1 : (⟨S2x625000, .i32⟩ : BufTy).Contents (Elt Ideal))
    (x2 : (⟨S625000, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v39 (F := Ideal) x0 x1 x2 x3 x4 x5 x6 x7 x8 x9 x10
      = Cert.Spec.nodeOut2 x0 x7 (val_main_v30 (F := Ideal) x8) x9 (val_main_v36 (F := Ideal) x10)
          (val_main_v27 (F := Ideal) x0 x1 x2 x3 x4 x5 x6) := by
  -- Entry by entry: fix a node `p` and an output feature `q`.
  funext i
  obtain ⟨p, q, rfl⟩ : ∃ p q, i = ix2 p q := ⟨i 0, i 1, eq_ix2 i⟩
  -- The stages' index maps at these coordinates, as for the messages, with the node's own row in place of the
  -- gathered row.
  have e35l : ∀ h : Fin 128, lidx_main_v35 (ix2 p q) h = ix2 p h := fun h =>
    funext fun a => Fin.ext (by match a with | ⟨0, _⟩ => rfl | ⟨1, _⟩ => rfl)
  have e35r : ∀ h : Fin 128, ridx_main_v35 (ix2 p q) h = ix2 h q := fun h =>
    funext fun a => Fin.ext (by match a with | ⟨0, _⟩ => rfl | ⟨1, _⟩ => rfl)
  have e34 : ∀ h : Fin 128, idx_main_v34 (ix2 h q) = ix2 q h := fun h =>
    funext fun a => Fin.ext (by match a with | ⟨0, _⟩ => rfl | ⟨1, _⟩ => rfl)
  have e29l : ∀ h k : Fin 128, lidx_main_v29 (ix2 p h) k = ix2 p k := fun h k =>
    funext fun a => Fin.ext (by match a with | ⟨0, _⟩ => rfl | ⟨1, _⟩ => rfl)
  have e29r : ∀ h k : Fin 128, ridx_main_v29 (ix2 p h) k = ix2 k h := fun h k =>
    funext fun a => Fin.ext (by match a with | ⟨0, _⟩ => rfl | ⟨1, _⟩ => rfl)
  have e28 : ∀ h k : Fin 128, idx_main_v28 (ix2 k h) = ix2 h k := fun h k =>
    funext fun a => Fin.ext (by match a with | ⟨0, _⟩ => rfl | ⟨1, _⟩ => rfl)
  have e31 : ∀ h : Fin 128, idx_main_v31 (ix2 p h) = ix2 (0 : Fin 1) h := fun h =>
    funext fun a => Fin.ext (by match a with | ⟨0, _⟩ => rfl | ⟨1, _⟩ => rfl)
  have e37 : idx_main_v37 (ix2 p q) = ix2 (0 : Fin 1) q :=
    funext fun a => Fin.ext (by match a with | ⟨0, _⟩ => rfl | ⟨1, _⟩ => rfl)
  rw [val_main_v39_apply, val_main_v38_apply, val_main_v35_apply, val_main_v37_apply, e37]
  unfold Cert.Spec.nodeOut2 Cert.Spec.mlpRow
  simp only [Ideal.addf_def]
  -- The reference adds the aggregated messages first; addition of extended reals commutes.
  refine (add_comm _ _).trans ?_
  refine congrArg (fun t => (t + val_main_v36 (F := Ideal) x10 (ix2 (0 : Fin 1) q))
    + val_main_v27 (F := Ideal) x0 x1 x2 x3 x4 x5 x6 (ix2 p q)) ?_
  -- Hidden unit by hidden unit.
  refine Finset.sum_congr rfl fun h _ => ?_
  rw [e35l, e35r, val_main_v33_apply, val_main_v34_apply, e34, val_main_v32_apply, val_main_v29_apply,
    val_main_v31_apply, e31, val_main_call1_v0_apply, val_main_call1_cst_apply]
  simp only [Ideal.maximumf_def, Ideal.addf_def, Ideal.ofBits_def]
  refine congrArg (fun t => max (t + val_main_v30 (F := Ideal) x8 (ix2 (0 : Fin 1) h)) (Ideal.ofBits .f32 0x00000000#32) * x9 (ix2 q h)) ?_
  -- Term by term of the first contraction.
  refine Finset.sum_congr rfl fun k _ => ?_
  rw [e29l, e29r, val_main_v28_apply, e28]

end Cert.ReferenceIdeal.RefValue

end
-- ==== Proof.Bridge.lean ====
/-
  Two ways the programs spell the same array: a bias `[b]` as the row `[1, b]`, and the edge weights `[a]` as the
  column `[a, 1]` — one program reshapes, the other broadcasts along a new unit axis. Entry by entry they agree.
-/
import Idealize.ShloMosaic.Lib.Pipeline.Value
import Idealize.ShloMosaic.Lib.ValueIdx

noncomputable section

namespace Cert.Bridge

open Idealize.ShloMosaic Idealize.ShloMosaic.ValueIdx

variable {α : Type}

/-- A vector reshaped to a one-row matrix is the vector broadcast along a new leading unit axis. -/
theorem castRow_eq_bcastRow {b : ℕ} (x : (⟨1, ![b]⟩ : Shape).Idx → α)
    (h : (⟨1, ![b]⟩ : Shape).ShapeCasts ⟨2, ![1, b]⟩)
    (h' : (⟨1, ![b]⟩ : Shape).BroadcastsInDim ⟨2, ![1, b]⟩ ![1]) :
    shapeCast ⟨2, ![1, b]⟩ x h = broadcastInDim ⟨2, ![1, b]⟩ ![1] h' x := by
  funext i
  obtain ⟨u, q, rfl⟩ : ∃ (u : Fin 1) (q : Fin b), i = ix2 u q := ⟨i 0, i 1, eq_ix2 i⟩
  have hu : u.val = 0 := by omega
  rw [shapeCast_apply x h (ix2 u q) (ix1 q) (by
        rw [Shape.rowMajor_val_two, Shape.rowMajor_val_one]
        show q.val = u.val * b + q.val
        rw [hu, Nat.zero_mul, Nat.zero_add]),
    broadcastInDim_apply ![1] h' x (ix2 u q) (ix1 q) (fun a => by
        obtain rfl : a = 0 := Subsingleton.elim _ _
        show q.val = if b = 1 then 0 else q.val
        split
        · have := q.isLt; omega
        · rfl)]

/-- A vector reshaped to a one-column matrix is the vector broadcast along a new trailing unit axis. -/
theorem castCol_eq_bcastCol {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  have hu : u.val = 0 := by omega
  rw [shapeCast_apply x h (ix2 p u) (ix1 p) (by
        rw [Shape.rowMajor_val_two, Shape.rowMajor_val_one]
        show p.val = p.val * 1 + u.val
        rw [hu, Nat.mul_one, Nat.add_zero]),
    broadcastInDim_apply ![0] h' x (ix2 p u) (ix1 p) (fun ax => by
        obtain rfl : ax = 0 := Subsingleton.elim _ _
        show p.val = if a = 1 then 0 else p.val
        split
        · have := p.isLt; omega
        · rfl)]

end Cert.Bridge

end
-- ==== Proof.KValue.lean ====
/-
  The idealized kernel's result array is the reference's result stage, as functions of the same arguments.

  The self-loop kernel's blocks give every node its own Linear → ReLU → Linear row plus the aggregate; the aggregate
  is the scatter-add of the message kernel's blocks, every edge's row function of its gathered source row times the
  edge's weight. With every source index inside the table the take fills nothing and is the gather the reference
  makes; a bias reshaped to a row is the bias broadcast to a row; the reference adds the two terms in the other
  order, which is the same extended real.
-/
import proofs.«411047_j88776974008405_1_alg».proof.Proof.Gen.KernelIdeal.Frame
import proofs.«411047_j88776974008405_1_alg».proof.Proof.Gen.ReferenceIdeal.Read
import proofs.«411047_j88776974008405_1_alg».proof.Proof.KHost
import proofs.«411047_j88776974008405_1_alg».proof.Proof.KBlocks0
import proofs.«411047_j88776974008405_1_alg».proof.Proof.KBlocks1
import proofs.«411047_j88776974008405_1_alg».proof.Proof.KTake
import proofs.«411047_j88776974008405_1_alg».proof.Proof.RefSpec
import proofs.«411047_j88776974008405_1_alg».proof.Proof.Bridge
import proofs.«411047_j88776974008405_1_alg».proof.Proof.Spec

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The messages: the message kernel's output array is the reference's message stage. -/
theorem messages_eq (c : Dev nD)
    (hlo : ∀ e : Fin 625000, IntOp.cmpi .sge ((m ((c : Thread nD τ).loc main_arg1) : IVec S2x625000 32) (ix2 (0 : Fin 2) e)) 0#32 = 1#1)
    (hhi : ∀ e : Fin 625000, IntOp.cmpi .slt ((m ((c : Thread nD τ).loc main_arg1) : IVec S2x625000 32) (ix2 (0 : Fin 2) e)) 50000#32 = 1#1) :
    (dat0 (V3 m ρ) c).arrAt 6 cfg0.N
      = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Blocks0.final0 (V3 m ρ) c, Host.V3_v4, Host.V3_arg3, Host.V3_v5, Host.V3_arg5, Host.V3_v6, Host.V3_v7,
    Take.take_of_range _ _ hlo hhi, Cert.ReferenceIdeal.RefValue.ref_msg]
  have h4 : shapeCast S1x128 (m ((c : Thread nD τ).loc main_arg4)) shapeCasts_S128_S1x128
      = Cert.ReferenceIdeal.Read.val_main_v13 (F := Ideal) (m ((c : Thread nD τ).loc main_arg4)) := Cert.Bridge.castRow_eq_bcastRow _ _ _
  have h6 : shapeCast S1x128 (m ((c : Thread nD τ).loc main_arg6)) shapeCasts_S128_S1x128
      = Cert.ReferenceIdeal.Read.val_main_v19 (F := Ideal) (m ((c : Thread nD τ).loc main_arg6)) := Cert.Bridge.castRow_eq_bcastRow _ _ _
  have h2 : shapeCast S625000x1 (m ((c : Thread nD τ).loc main_arg2)) shapeCasts_S625000_S625000x1
      = Cert.ReferenceIdeal.Read.val_main_v22 (F := Ideal) (m ((c : Thread nD τ).loc main_arg2)) := Cert.Bridge.castCol_eq_bcastCol _ _ _
  rw [h4, h6, h2]
  rfl

/-- The result: the self-loop kernel's output array, which is @main's result, is the reference's result stage. -/
theorem result_eq (c : Dev nD)
    (hlo : ∀ e : Fin 625000, IntOp.cmpi .sge ((m ((c : Thread nD τ).loc main_arg1) : IVec S2x625000 32) (ix2 (0 : Fin 2) e)) 0#32 = 1#1)
    (hhi : ∀ e : Fin 625000, IntOp.cmpi .slt ((m ((c : Thread nD τ).loc main_arg1) : IVec S2x625000 32) (ix2 (0 : Fin 2) e)) 50000#32 = 1#1) :
    W6 m ρ c (Proc.devRef .tc main_v14)
      = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hout : W6 m ρ c (Proc.devRef .tc main_v14) = (dat1 (V5 m ρ) c).arrAt 6 cfg1.N := W6_arr m ρ c 6
  rw [hout, Blocks1.final1 (V5 m ρ) c, Host.V5_arg0, Host.V5_arg7, Host.V5_v12, Host.V5_arg9, Host.V5_v13, Host.V5_v11,
    messages_eq m ρ c hlo hhi, Cert.ReferenceIdeal.RefValue.ref_out]
  have h8 : shapeCast S1x128 (m ((c : Thread nD τ).loc main_arg8)) shapeCasts_S128_S1x128
      = Cert.ReferenceIdeal.Read.val_main_v30 (F := Ideal) (m ((c : Thread nD τ).loc main_arg8)) := Cert.Bridge.castRow_eq_bcastRow _ _ _
  have h10 : shapeCast S1x128 (m ((c : Thread nD τ).loc main_arg10)) shapeCasts_S128_S1x128
      = Cert.ReferenceIdeal.Read.val_main_v36 (F := Ideal) (m ((c : Thread nD τ).loc main_arg10)) := Cert.Bridge.castRow_eq_bcastRow _ _ _
  rw [h8, h10]
  rfl

end Cert.KernelIdeal.Value

end
-- ==== Proof.PreDecode.lean ====
/-
  What the precondition says about the edge list: its two last conjuncts state that every source index (row 0 of the
  edge list) is at least 0 and below 50000, the number of nodes.
-/
import proofs.«411047_j88776974008405_1_alg».proof.Pre_finite_inputs
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Ideal

noncomputable section

namespace Cert.Pre_finite_inputs.Decode

open Cert.Pre_finite_inputs Idealize.ShloMosaic Idealize.ShloMosaic.ValueIdx

variable [Cert.Pre_finite_inputs.Facts]

/-- The scalar shape has one index. -/
theorem scalarIdx_subsingleton : Subsingleton S_.Idx := ⟨fun a b => funext fun d => d.elim0⟩

/-- A conjunction of two one-bit vectors that is 1 at an index has both conjuncts 1 there. -/
theorem andi_apply_eq_one {s : Shape} (x y : IVec s 1) (i : s.Idx) (h : andi x y i = 1#1) :
    x i = 1#1 ∧ y i = 1#1 :=
  IntOp.andi_eq_one.1 h

/-- Row 0 of the edge list, cut out as a one-row matrix and flattened, read at position `e`: the entry `(0, e)`. -/
theorem row0_flat_apply (a1 : IVec S2x625000 32) (e : Fin 625000) :
    shapeCast S625000 (extractStridedSlice S1x625000 ![0, 0] a1 Facts.slices_S2x625000_S1x625000_0_0)
        Facts.shapeCasts_S1x625000_S625000 (ix1 e) = a1 (ix2 (0 : Fin 2) e) := by
  refine (shapeCast_apply _ Facts.shapeCasts_S1x625000_S625000 (ix1 e) (ix2 (0 : Fin 1) e) ?_).trans ?_
  · rewrite [Shape.rowMajor_val_two, Shape.rowMajor_val_one]
    show 0 * 625000 + e.val = e.val
    omega
  · exact extractStridedSlice_apply ![0, 0] a1 Facts.slices_S2x625000_S1x625000_0_0 (ix2 (0 : Fin 1) e)
      (ix2 (0 : Fin 2) e) (fun a => match a with
        | ⟨0, _⟩ => by show 0 = 0 + 0; omega
        | ⟨1, _⟩ => by show e.val = 0 + e.val; omega)

/-- A scalar constant broadcast over the edges reads the constant at every edge. -/
theorem bcast_const_apply (c : BitVec 32) (e : Fin 625000) :
    broadcastInDim S625000 ![] Facts.bcast_S_S625000 (constantI S_ 32 c) (ix1 e) = c :=
  StableHlo.Predicate.bcast_scalar Facts.bcast_S_S625000 Facts.h_S_ (constantI S_ 32 c) (ix1 e)

/-- The last thirteen operations of the precondition: where their result is 1, both all-reductions are 1, so each compared
    vector is 1 at every edge; read at edge `e`, the two comparisons are of the entry `(0, e)` with 0 and with 50000. -/
theorem tail_decode {F : FTy → Type} [FloatOps F] (a1 : IVec S2x625000 32) (v48 : IVec S_ 1)
    (h : fn_part3 (F := F) a1 v48
      (shapeCast S625000 (extractStridedSlice S1x625000 ![0, 0] a1 Facts.slices_S2x625000_S1x625000_0_0)
        Facts.shapeCasts_S1x625000_S625000) (constantI S_ 32 0#32) ix0 = 1#1) :
    (∀ e : Fin 625000, IntOp.cmpi .sge (a1 (ix2 (0 : Fin 2) e)) 0#32 = 1#1)
      ∧ (∀ e : Fin 625000, IntOp.cmpi .slt (a1 (ix2 (0 : Fin 2) e)) 50000#32 = 1#1) := by
  haveI : Subsingleton S_.Idx := scalarIdx_subsingleton
  unfold fn_part3 at h
  obtain ⟨h54, h59⟩ := andi_apply_eq_one _ _ _ h
  obtain ⟨_, h53⟩ := andi_apply_eq_one _ _ _ h54
  refine ⟨fun e => ?_, fun e => ?_⟩
  · have hc := Host.reduce_andi_all _ _ _ _ _ h53 (ix1 e)
    have hc' : IntOp.cmpi .sge
        (shapeCast S625000 (extractStridedSlice S1x625000 ![0, 0] a1 Facts.slices_S2x625000_S1x625000_0_0)
          Facts.shapeCasts_S1x625000_S625000 (ix1 e))
        (broadcastInDim S625000 ![] Facts.bcast_S_S625000 (constantI S_ 32 0#32) (ix1 e)) = 1#1 := hc
    rw [row0_flat_apply, bcast_const_apply] at hc'
    exact hc'
  · have hc := Host.reduce_andi_all _ _ _ _ _ h59 (ix1 e)
    have hc' : IntOp.cmpi .slt
        (shapeCast S625000 (extractStridedSlice S1x625000 ![0, 0] a1 Facts.slices_S2x625000_S1x625000_0_0)
          Facts.shapeCasts_S1x625000_S625000 (ix1 e))
        (broadcastInDim S625000 ![] Facts.bcast_S_S625000 (constantI S_ 32 50000#32) (ix1 e)) = 1#1 := hc
    rw [row0_flat_apply, bcast_const_apply] at hc'
    exact hc'

/-- Where the precondition holds, every source index is in `[0, 50000)` as a signed 32-bit word. -/
theorem src_range {F : FTy → Type} [FloatOps F]
    (a0 : FVec F S50000x128 .f32) (a1 : IVec S2x625000 32) (a2 : FVec F S625000 .f32) (a3 : FVec F S128x128 .f32)
    (a4 : FVec F S128 .f32) (a5 : FVec F S128x128 .f32) (a6 : FVec F S128 .f32) (a7 : FVec F S128x128 .f32)
    (a8 : FVec F S128 .f32) (a9 : FVec F S128x128 .f32) (a10 : FVec F S128 .f32)
    (h : Cert.Pre_finite_inputs.fn (F := F) a0 a1 a2 a3 a4 a5 a6 a7 a8 a9 a10 = fun _ => 1#1) :
    (∀ e : Fin 625000, IntOp.cmpi .sge (a1 (ix2 (0 : Fin 2) e)) 0#32 = 1#1)
      ∧ (∀ e : Fin 625000, IntOp.cmpi .slt (a1 (ix2 (0 : Fin 2) e)) 50000#32 = 1#1) := by
  exact tail_decode (F := F) a1 _ (congrFun h ix0)

end Cert.Pre_finite_inputs.Decode

end
-- ==== Proof.lean ====
/-
  A two-layer graph convolution, kernel against reference, over the extended reals.

  Both programs gather each edge's source row of the node features, pass it through Linear → ReLU → Linear
  (`y = x · Wᵀ + b`), scale the row by the edge's weight, scatter-add the rows onto the destination nodes, and add
  the nodes' own rows passed through a second Linear → ReLU → Linear. The kernel does the two dense chains in two
  pipelined calls, 25 blocks of 25000 edges and 10 blocks of 5000 nodes; its operands rounded to bf16 are, over the
  extended reals, the operands themselves, and each block's matrix product is the same sum over the 128 hidden
  coordinates the reference's product is, term by term in the same order. So no law of arithmetic is used beyond the
  commutativity of the last sum, which holds on all extended reals: finiteness of the inputs is never opened.

  The one difference is the gather. The kernel's `jnp.take` fills a row with a constant where the source index falls
  outside the table, where the reference's indexing clamps; the precondition keeps every source index in
  `[0, 50000)`, and there nothing is filled and the two gathers are one function (`Take.take_of_range`).
  The scatter-add is the same operation of equal operands in both programs and is never opened.

  `result_eq` (KValue) carries the chain: result array = blocks of the self-loop call = row function + aggregate,
  aggregate = scatter-add of the message call's blocks, those = the reference's message stage.
-/
import proofs.«411047_j88776974008405_1_alg».proof.Defs
import proofs.«411047_j88776974008405_1_alg».proof.Proof.Gen.Kernel
import proofs.«411047_j88776974008405_1_alg».proof.Proof.Gen.Kernel.Skeleton
import proofs.«411047_j88776974008405_1_alg».proof.Proof.Gen.Kernel.Launch
import proofs.«411047_j88776974008405_1_alg».proof.Proof.Gen.Kernel.Points
import proofs.«411047_j88776974008405_1_alg».proof.Proof.Gen.Kernel.Frame
import proofs.«411047_j88776974008405_1_alg».proof.Proof.Gen.KernelIdeal
import proofs.«411047_j88776974008405_1_alg».proof.Proof.Gen.KernelIdeal.Skeleton
import proofs.«411047_j88776974008405_1_alg».proof.Proof.Gen.KernelIdeal.Launch
import proofs.«411047_j88776974008405_1_alg».proof.Proof.Gen.KernelIdeal.Points
import proofs.«411047_j88776974008405_1_alg».proof.Proof.Gen.KernelIdeal.Frame
import proofs.«411047_j88776974008405_1_alg».proof.Proof.Gen.ReferenceIdeal
import proofs.«411047_j88776974008405_1_alg».proof.Proof.Gen.Pre_finite_inputs
import proofs.«411047_j88776974008405_1_alg».proof.Proof.Gen.ReferenceIdeal.Run
import proofs.«411047_j88776974008405_1_alg».proof.Proof.Gen.ReferenceIdeal.Read
import proofs.«411047_j88776974008405_1_alg».proof.Proof.KernelIdealRun
import proofs.«411047_j88776974008405_1_alg».proof.Proof.KValue
import proofs.«411047_j88776974008405_1_alg».proof.Proof.PreDecode
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: the kernel's, read off its
    last call's blocks, is the reference's result stage of the same arguments wherever the source indices are in range,
    which the precondition says. -/
theorem algebraic : Cert.algebraic_KernelIdeal_ReferenceIdeal := by
  intro m ρ m' ρ' hpre hagree
  refine ⟨fun c => Cert.KernelIdeal.Gen.W6 m ρ c (Proc.devRef .tc Cert.KernelIdeal.main_v14),
    Cert.KernelIdeal.GenRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨hlo, hhi⟩ := Cert.Pre_finite_inputs.Decode.src_range (F := Ideal) _ _ _ _ _ _ _ _ _ _ _ (hpre c)
  obtain ⟨e0, e1, e2, e3, e4, e5, e6, e7, e8, e9, e10⟩ := hagree c
  rw [Cert.ReferenceIdeal.Read.val_main_v39_eq, e0, e1, e2, e3, e4, e5, e6, e7, e8, e9, e10]
  exact (Cert.KernelIdeal.Value.result_eq m ρ c hlo hhi).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
